-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1536x4096 : Shape := ⟨2, ![1536, 4096]⟩
abbrev S12288x32 : Shape := ⟨2, ![12288, 32]⟩
abbrev S12288 : Shape := ⟨1, ![12288]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S12288x32 : S_.BroadcastsInDim S12288x32 (![] : Fin 0 → Fin S12288x32.rank)
  reducesTo_S12288x32_S_d0_1 : S12288x32.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S4096x4096 .f32) (main_arg1 : IVec S1536x4096 32) (main_arg2 : FVec F S12288x32 .f32) (main_arg3 : FVec F S12288 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S12288x32 .f32 := Host.absf main_arg2
  let main_cst_0 : FVec F S_ .f32 := constant S_ .f32 0x7F800000#32
  let main_v5 : FVec F S12288x32 .f32 := broadcastInDim S12288x32 ![] bcast_S_S12288x32 main_cst_0
  let main_v6 : IVec S12288x32 1 := cmpf .olt main_v4 main_v5
  let main_c_1 : IVec S_ 1 := constantI S_ 1 1#1
  let main_v7 : IVec S_ 1 := (fun x v => Host.reduce IntOp.andi x v reducesTo_S12288x32_S_d0_1 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S4096x4096 : Shape := ⟨2, ![4096, 4096]⟩
abbrev S1536x4096 : Shape := ⟨2, ![1536, 4096]⟩
abbrev S12288x32 : Shape := ⟨2, ![12288, 32]⟩
abbrev S12288 : Shape := ⟨1, ![12288]⟩
abbrev S1x12288 : Shape := ⟨2, ![1, 12288]⟩
abbrev S4096x12288 : Shape := ⟨2, ![4096, 12288]⟩
abbrev S1024x4096 : Shape := ⟨2, ![1024, 4096]⟩
abbrev S32x4096 : Shape := ⟨2, ![32, 4096]⟩
abbrev S256x32 : Shape := ⟨2, ![256, 32]⟩
abbrev S1x256 : Shape := ⟨2, ![1, 256]⟩
abbrev S1024x256 : Shape := ⟨2, ![1024, 256]⟩
abbrev S32x1024 : Shape := ⟨2, ![32, 1024]⟩
abbrev S32x1x1024 : Shape := ⟨3, ![32, 1, 1024]⟩
abbrev S32x8x1024 : Shape := ⟨3, ![32, 8, 1024]⟩
abbrev S256x1024 : Shape := ⟨2, ![256, 1024]⟩
abbrev S256x8 : Shape := ⟨2, ![256, 8]⟩
abbrev S256x8x128 : Shape := ⟨3, ![256, 8, 128]⟩
abbrev S256x8x1 : Shape := ⟨3, ![256, 8, 1]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S1536x4096, .i32⟩
  | .hbm, ⟨2, _⟩ => ⟨S12288x32, .f32⟩
  | .hbm, ⟨3, _⟩ => ⟨S12288, .f32⟩
  | .hbm, ⟨4, _⟩ => ⟨S1x12288, .f32⟩
  | .hbm, ⟨5, _⟩ => ⟨S4096x4096, .bf16⟩
  | .hbm, ⟨6, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .i32⟩
  | .local _ .vmem, ⟨3, _⟩ => ⟨S32x4096, .i32⟩
  | .local _ .vmem, ⟨4, _⟩ => ⟨S256x32, .f32⟩
  | .local _ .vmem, ⟨5, _⟩ => ⟨S256x32, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S12288_S1x12288 : S12288.ShapeCasts S1x12288
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S32x4096_S32x1024_0_0 : ∀ a, (![0, 0] : Fin 2 → Nat) a + S32x1024.size a ≤ S32x4096.size a
  h_S32x1024 : 0 < S32x1024.numel
  shapeCasts_S32x1024_S32x1x1024 : S32x1024.ShapeCasts S32x1x1024
  concatenates_S32x1x1024_S32x1x1024_S32x1x1024_S32x1x1024_S32x1x1024_S32x1x1024_S32x1x1024_S32x1x1024_S32x8x1024_d1 : Shape.Concatenates [S32x1x1024, S32x1x1024, S32x1x1024, S32x1x1024, S32x1x1024, S32x1x1024, S32x1x1024, S32x1x1024] S32x8x1024 1
  shapeCasts_S32x8x1024_S256x1024 : S32x8x1024.ShapeCasts S256x1024
  inb_S256x32_S256x8_0_0 : ∀ a, (![0, 0] : Fin 2 → Nat) a + S256x8.size a ≤ S256x32.size a
  h_S256x8 : 0 < S256x8.numel
  shapeCasts_S256x1024_S256x8x128 : S256x1024.ShapeCasts S256x8x128
  shapeCasts_S256x8_S256x8x1 : S256x8.ShapeCasts S256x8x1
  broadcasts_S256x8x1_S256x8x128 : S256x8x1.Broadcasts S256x8x128
  shapeCasts_S256x8x128_S256x1024 : S256x8x128.ShapeCasts S256x1024
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S32x4096_S32x1024_0_1024 : ∀ a, (![0, 1024] : Fin 2 → Nat) a + S32x1024.size a ≤ S32x4096.size a
  inb_S256x32_S256x8_0_8 : ∀ a, (![0, 8] : Fin 2 → Nat) a + S256x8.size a ≤ S256x32.size a
  inb_S1024x4096_S1024x1024_0_1024 : ∀ a, (![0, 1024] : Fin 2 → Nat) a + S1024x1024.size a ≤ S1024x4096.size a
  inb_S32x4096_S32x1024_0_2048 : ∀ a, (![0, 2048] : Fin 2 → Nat) a + S32x1024.size a ≤ S32x4096.size a
  inb_S256x32_S256x8_0_16 : ∀ a, (![0, 16] : Fin 2 → Nat) a + S256x8.size a ≤ S256x32.size a
  inb_S1024x4096_S1024x1024_0_2048 : ∀ a, (![0, 2048] : Fin 2 → Nat) a + S1024x1024.size a ≤ S1024x4096.size a
  inb_S32x4096_S32x1024_0_3072 : ∀ a, (![0, 3072] : Fin 2 → Nat) a + S32x1024.size a ≤ S32x4096.size a
  inb_S256x32_S256x8_0_24 : ∀ a, (![0, 24] : Fin 2 → Nat) a + S256x8.size a ≤ S256x32.size a
  inb_S1024x4096_S1024x1024_0_3072 : ∀ a, (![0, 3072] : Fin 2 → Nat) a + S1024x1024.size a ≤ S1024x4096.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S1536x4096.size a
  hwx0_1 : ∀ i : grid0.Coords, EltTy.bits .i32 = 32 ∨ (Rect.block (s := S1536x4096) S32x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S12288x32.size a
  hwx0_2 : ∀ i : grid0.Coords, EltTy.bits .f32 = 32 ∨ (Rect.block (s := S12288x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x12288.size a
  hwx0_3 : ∀ i : grid0.Coords, EltTy.bits .f32 = 32 ∨ (Rect.block (s := S1x12288) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x12288.size a
  hwx0_4 : ∀ i : grid0.Coords, EltTy.bits .f32 = 32 ∨ (Rect.block (s := S4096x12288) S1024x256.size (cc0_transform_4 i) (hinb0_4 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1536x4096 : Shape := ⟨2, ![1536, 4096]⟩
abbrev S12288x32 : Shape := ⟨2, ![12288, 32]⟩
abbrev S12288 : Shape := ⟨1, ![12288]⟩
abbrev S8 : Shape := ⟨1, ![8]⟩
abbrev S_ : Shape := ⟨0, ![]⟩
abbrev S1536x1x4096 : Shape := ⟨3, ![1536, 1, 4096]⟩
abbrev S1x8x1 : Shape := ⟨3, ![1, 8, 1]⟩
abbrev S1536x8x4096 : Shape := ⟨3, ![1536, 8, 4096]⟩
abbrev S12288x4096 : Shape := ⟨2, ![12288, 4096]⟩
abbrev S12288x32x128 : Shape := ⟨3, ![12288, 32, 128]⟩
abbrev S4096x12288 : Shape := ⟨2, ![4096, 12288]⟩
abbrev S1x12288 : Shape := ⟨2, ![1, 12288]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1536x4096, .i32⟩
  | .hbm, ⟨2, _⟩ => ⟨S12288x32, .f32⟩
  | .hbm, ⟨3, _⟩ => ⟨S12288, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1536x1x4096, .i32⟩
  | .hbm, ⟨9, _⟩ => ⟨S1x8x1, .i32⟩
  | .hbm, ⟨10, _⟩ => ⟨S1536x8x4096, .i32⟩
  | .hbm, ⟨11, _⟩ => ⟨S1536x8x4096, .i32⟩
  | .hbm, ⟨12, _⟩ => ⟨S1536x8x4096, .i32⟩
  | .hbm, ⟨13, _⟩ => ⟨S_, .i32⟩
  | .hbm, ⟨14, _⟩ => ⟨S1536x8x4096, .i32⟩
  | .hbm, ⟨15, _⟩ => ⟨S1536x8x4096, .i32⟩
  | .hbm, ⟨16, _⟩ => ⟨S12288x4096, .i32⟩
  | .hbm, ⟨17, _⟩ => ⟨S_, .i32⟩
  | .hbm, ⟨18, _⟩ => ⟨S12288x4096, .i32⟩
  | .hbm, ⟨19, _⟩ => ⟨S12288x4096, .i1⟩
  | .hbm, ⟨20, _⟩ => ⟨S_, .i32⟩
  | .hbm, ⟨21, _⟩ => ⟨S12288x4096, .i32⟩
  | .hbm, ⟨22, _⟩ => ⟨S12288x4096, .i32⟩
  | .hbm, ⟨23, _⟩ => ⟨S12288x4096, .i32⟩
  | .hbm, ⟨24, _⟩ => ⟨S12288x4096, .f32⟩
  | .hbm, ⟨25, _⟩ => ⟨S12288x32x128, .f32⟩
  | .hbm, ⟨26, _⟩ => ⟨S12288x4096, .f32⟩
  | .hbm, ⟨27, _⟩ => ⟨S12288x4096, .f32⟩
  | .hbm, ⟨28, _⟩ => ⟨S4096x12288, .f32⟩
  | .hbm, ⟨29, _⟩ => ⟨S4096x12288, .f32⟩
  | .hbm, ⟨30, _⟩ => ⟨S1x12288, .f32⟩
  | .hbm, ⟨31, _⟩ => ⟨S4096x12288, .f32⟩
  | .hbm, ⟨32, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1536x4096_S1536x1x4096_0_2 : S1536x4096.BroadcastsInDim S1536x1x4096 (![0, 2] : Fin 2 → Fin S1536x1x4096.rank)
  bcast_S8_S1x8x1_1 : S8.BroadcastsInDim S1x8x1 (![1] : Fin 1 → Fin S1x8x1.rank)
  bcast_S1536x1x4096_S1536x8x4096_0_1_2 : S1536x1x4096.BroadcastsInDim S1536x8x4096 (![0, 1, 2] : Fin 3 → Fin S1536x8x4096.rank)
  bcast_S1x8x1_S1536x8x4096_0_1_2 : S1x8x1.BroadcastsInDim S1536x8x4096 (![0, 1, 2] : Fin 3 → Fin S1536x8x4096.rank)
  bcast_S_S1536x8x4096 : S_.BroadcastsInDim S1536x8x4096 (![] : Fin 0 → Fin S1536x8x4096.rank)
  shapeCasts_S1536x8x4096_S12288x4096 : S1536x8x4096.ShapeCasts S12288x4096
  bcast_S_S12288x4096 : S_.BroadcastsInDim S12288x4096 (![] : Fin 0 → Fin S12288x4096.rank)
  bcast_S12288x32_S12288x32x128_0_1 : S12288x32.BroadcastsInDim S12288x32x128 (![0, 1] : Fin 2 → Fin S12288x32x128.rank)
  shapeCasts_S12288x32x128_S12288x4096 : S12288x32x128.ShapeCasts S12288x4096
  transposes_S12288x4096_S4096x12288_1_0 : S12288x4096.Transposes [1, 0] S4096x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x4096_S4096x12288_S4096x12288_1_0_0_1_n_n_wf : DotDims.WF S4096x4096 S4096x12288 S4096x12288 [1] [0] [0] [1] [] []

variable [Facts₀]

def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf

class Facts : Prop extends Facts₀ where

variable [Facts]
-- ==== Proof.Geometry.lean ====
/-
  Where each window's block sits in its array.

  The grid is 4 × 48: point t has coordinates (M, N) = the output window's block indices. The output block at t is rows
  1024·M … 1024·M + 1023 and columns 256·N … 256·N + 255 of the 4096 × 12288 result. The activation block is the same
  1024 rows, all 4096 columns; the packed-weight block is packed rows 32·N … 32·N + 31 (output features 256·N … 256·N + 255,
  eight per packed row); the scale block is rows 256·N … 256·N + 255, all 32 groups; the bias block is columns
  256·N … 256·N + 255 of the one-row bias. The 192 output blocks tile the result.
-/
import proofs.«427488_j32341103739318_3_alg».proof.Proof.Gen.KernelIdeal.Frame
import Idealize.ShloMosaic.Lib.Pipeline.Value
import Idealize.ShloMosaic.Lib.ValueIdx

set_option maxRecDepth 16384

noncomputable section

namespace Cert.Dequant.Geometry

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the five windows at a point, in terms of the output window's, decided over the 192 points. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 47 := by
  show ∀ t : Fin grid0.N, _
  decide +kernel

/-- Every pair of block indices is some point's. -/
theorem idx_onto : ∀ (q0 : Fin 4) (q1 : Fin 48), ∃ t : Fin cfg0.N, win0_4.index t = ![q0.val, q1.val] := by
  exact (by decide +kernel : ∀ (q0 : Fin 4) (q1 : Fin 48), ∃ t : Fin grid0.N, win0_4.index t = ![q0.val, q1.val])

/-- Row `p` of point `t`'s blocks, as a row of the result (and of the activations). -/
def row (t : Fin cfg0.N) (p : Fin 1024) : Fin 4096 :=
  ⟨win0_4.index t (0 : Fin 2) * 1024 + p.val, by have := (idx_facts t).2.2.2.2.2.2.2.2.1; have := p.isLt; omega⟩

/-- Column `q` of point `t`'s blocks, as an output feature. -/
def col (t : Fin cfg0.N) (q : Fin 256) : Fin 12288 :=
  ⟨win0_4.index t (1 : Fin 2) * 256 + q.val, by have := (idx_facts t).2.2.2.2.2.2.2.2.2; have := q.isLt; omega⟩

/-- Packed row `r` of point `t`'s weight block, as a packed row of the weights. -/
def prow (t : Fin cfg0.N) (r : Fin 32) : Fin 1536 :=
  ⟨win0_4.index t (1 : Fin 2) * 32 + r.val, by have := (idx_facts t).2.2.2.2.2.2.2.2.2; have := r.isLt; omega⟩

theorem col_mod (t : Fin cfg0.N) (q : Fin 256) : (col t q).val % 8 = q.val % 8 := by
  unfold col; show (win0_4.index t (1 : Fin 2) * 256 + q.val) % 8 = q.val % 8; omega

theorem col_div (t : Fin cfg0.N) (q : Fin 256) : (col t q).val / 8 = (prow t ⟨q.val / 8, by omega⟩).val := by
  unfold col prow; show (win0_4.index t (1 : Fin 2) * 256 + q.val) / 8 = win0_4.index t (1 : Fin 2) * 32 + q.val / 8; omega

/-- The blocks the body is run on at point `t`, at their literal types. -/
abbrev xblk (c : Dev nD) (t : Fin cfg0.N) : Vec F S1024x4096 .bf16 := iblk m c 0 t
abbrev qblk (c : Dev nD) (t : Fin cfg0.N) : Vec F S32x4096 .i32 := iblk m c 1 t
abbrev sblk (c : Dev nD) (t : Fin cfg0.N) : Vec F S256x32 .f32 := iblk m c 2 t
abbrev bblk (c : Dev nD) (t : Fin cfg0.N) : Vec F S1x256 .f32 := iblk m c 3 t

/-- The activation block reads the activations at the point's rows. -/
theorem xblk_read (c : Dev nD) (t : Fin cfg0.N) (p : Fin 1024) (k : Fin 4096) :
    xblk m c t (ix2 p k) = (V m c main_v1 : S4096x4096.Idx → Elt F .bf16) (ix2 (row t p) k) := by
  obtain ⟨e00, e01, e10, e11, e20, e21, e30, e31, b0, b1⟩ := idx_facts t
  show V m c main_v1 (((cfg0.win 0).blk t).view.emb (ix2 p k)) = V m c main_v1 (ix2 (row t p) k)
  congr 1
  funext a; apply Fin.ext
  match a with
  | ⟨0, _⟩ => show win0_0.index t (0 : Fin 2) * 1024 + 1 * p.val = win0_4.index t (0 : Fin 2) * 1024 + p.val; omega
  | ⟨1, _⟩ => show win0_0.index t (1 : Fin 2) * 4096 + 1 * k.val = k.val; omega

/-- The packed-weight block reads the packed weights at the point's packed rows. -/
theorem qblk_read (c : Dev nD) (t : Fin cfg0.N) (r : Fin 32) (k : Fin 4096) :
    qblk m c t (ix2 r k) = (V m c main_arg1 : S1536x4096.Idx → Elt F .i32) (ix2 (prow t r) k) := by
  obtain ⟨e00, e01, e10, e11, e20, e21, e30, e31, b0, b1⟩ := idx_facts t
  show V m c main_arg1 (((cfg0.win 1).blk t).view.emb (ix2 r k)) = V m c main_arg1 (ix2 (prow t r) k)
  congr 1
  funext a; apply Fin.ext
  match a with
  | ⟨0, _⟩ => show win0_1.index t (0 : Fin 2) * 32 + 1 * r.val = win0_4.index t (1 : Fin 2) * 32 + r.val; omega
  | ⟨1, _⟩ => show win0_1.index t (1 : Fin 2) * 4096 + 1 * k.val = k.val; omega

/-- The scale block reads the scales at the point's output features. -/
theorem sblk_read (c : Dev nD) (t : Fin cfg0.N) (q : Fin 256) (g : Fin 32) :
    sblk m c t (ix2 q g) = (V m c main_arg2 : S12288x32.Idx → Elt F .f32) (ix2 (col t q) g) := by
  obtain ⟨e00, e01, e10, e11, e20, e21, e30, e31, b0, b1⟩ := idx_facts t
  show V m c main_arg2 (((cfg0.win 2).blk t).view.emb (ix2 q g)) = V m c main_arg2 (ix2 (col t q) g)
  congr 1
  funext a; apply Fin.ext
  match a with
  | ⟨0, _⟩ => show win0_2.index t (0 : Fin 2) * 256 + 1 * q.val = win0_4.index t (1 : Fin 2) * 256 + q.val; omega
  | ⟨1, _⟩ => show win0_2.index t (1 : Fin 2) * 32 + 1 * g.val = g.val; omega

/-- The bias block reads the one-row bias at the point's output features. -/
theorem bblk_read (c : Dev nD) (t : Fin cfg0.N) (q : Fin 256) :
    bblk m c t (ix2 (0 : Fin 1) q) = (V m c main_v0 : S1x12288.Idx → Elt F .f32) (ix2 (0 : Fin 1) (col t q)) := by
  obtain ⟨e00, e01, e10, e11, e20, e21, e30, e31, b0, b1⟩ := idx_facts t
  show V m c main_v0 (((cfg0.win 3).blk t).view.emb (ix2 (0 : Fin 1) q)) = V m c main_v0 (ix2 (0 : Fin 1) (col t q))
  congr 1
  funext a; apply Fin.ext
  match a with
  | ⟨0, _⟩ => show win0_3.index t (0 : Fin 2) * 1 + 1 * (0 : Fin 1).val = (0 : Fin 1).val; omega
  | ⟨1, _⟩ => show win0_3.index t (1 : Fin 2) * 256 + 1 * q.val = win0_4.index t (1 : Fin 2) * 256 + q.val; omega

/-- Entry (p, q) of the output block at `t` is entry (row t p, col t q) of the result. -/
theorem out_emb (t : Fin cfg0.N) (p : Fin 1024) (q : Fin 256) :
    ((cfg0.win 4).blk t).view.emb (ix2 p q) = (ix2 (row t p) (col t q) : S4096x12288.Idx) := by
  funext a; apply Fin.ext
  match a with
  | ⟨0, _⟩ => show win0_4.index t (0 : Fin 2) * 1024 + 1 * p.val = win0_4.index t (0 : Fin 2) * 1024 + p.val; omega
  | ⟨1, _⟩ => show win0_4.index t (1 : Fin 2) * 256 + 1 * q.val = win0_4.index t (1 : Fin 2) * 256 + q.val; omega

/-- An entry of the result is in point `t`'s output block iff each coordinate is in the block's range on its axis. -/
private theorem mem_blk (t : Fin cfg0.N) (i : S4096x12288.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2).slice (win0_4.rect t)).set ↔ _
  rw [View.set_slice_whole, Rect.mem_set_unit]
  exact Iff.rfl

/-- Every entry of the result lies in the block of a point that writes back. -/
theorem cover (i : S4096x12288.Idx) :
    ∃ t : Fin cfg0.N, (cfg0.win 4).flush t = true ∧ i ∈ ((cfg0.win 4).blk t).view.set := by
  have hi0 : (i 0).val < 4096 := (i 0).isLt
  have hi1 : (i 1).val < 12288 := (i 1).isLt
  obtain ⟨t, ht⟩ := idx_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

end Cert.Dequant.Geometry

end
-- ==== Proof.HostPrefix.lean ====
/-
  What the region finds in the two arrays the host writes before it.

  Before the kernel region the program narrows the activations to a shorter float format and reshapes the bias vector
  to one row. At the ideal values a change of float format is the identity, so the narrowed activations are the
  argument entry by entry; the reshaped bias at (0, o) is the argument at o, the two having the same flat position.
-/
import proofs.«427488_j32341103739318_3_alg».proof.Proof.Gen.KernelIdeal.Frame
import Idealize.ShloMosaic.Lib.StableHlo.Run
import Idealize.ShloMosaic.Lib.Pipeline.Value
import Idealize.ShloMosaic.Lib.ValueIdx

noncomputable section

namespace Cert.Dequant.HostPrefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The narrowed activations are the activations. -/
theorem act_at (c : Dev nD) (i : S4096x4096.Idx) :
    (V m c main_v1 : S4096x4096.Idx → Elt Ideal .bf16) i
      = (m ((c : Thread nD τ).loc main_arg0) : S4096x4096.Idx → Elt Ideal .f32) i := by
  -- the array after the two host operations is the format change of the argument array
  have e : (V m c main_v1 : S4096x4096.Idx → Elt Ideal .bf16)
      = (truncf (F := Ideal) (s := S4096x4096) (φ := .f32) .bf16 (m ((c : Thread nD τ).loc main_arg0)) bitsLt_bf16_f32
          : S4096x4096.Idx → Elt Ideal .bf16) := by
    dsimp only [Gen.V, Gen.hostOps0]
    after_results
  rw [e]
  exact truncf_apply _ _ i

/-- The one-row bias at column `o` is the bias at `o`. -/
theorem bias_at (c : Dev nD) (o : Fin 12288) :
    (V m c main_v0 : S1x12288.Idx → Elt Ideal .f32) (ix2 (0 : Fin 1) o)
      = (m ((c : Thread nD τ).loc main_arg3) : S12288.Idx → Elt Ideal .f32) (ix1 o) := by
  -- the array after the two host operations is the reshape of the argument vector
  have e : (V m c main_v0 : S1x12288.Idx → Elt Ideal .f32)
      = (shapeCast (s := S12288) (α := Elt Ideal .f32) S1x12288 (m ((c : Thread nD τ).loc main_arg3)) shapeCasts_S12288_S1x12288
          : S1x12288.Idx → Elt Ideal .f32) := by
    dsimp only [Gen.V, Gen.hostOps0]
    after_results
    rfl
  rw [e]
  -- (0, o) and o have the same flat position: 0 · 12288 + o = o
  exact shapeCast_apply _ shapeCasts_S12288_S1x12288 (ix2 (0 : Fin 1) o) (ix1 o) (by
    rewrite [Shape.rowMajor_val_two, Shape.rowMajor_val_one]
    show o.val = 0 * 12288 + o.val
    omega)

end Cert.Dequant.HostPrefix

end
-- ==== Proof.Spec.lean ====
/-
  The result both programs compute, as one function of the argument arrays.

  A packed word holds eight signed 4-bit weights; field j occupies bits 4j … 4j+3. Output feature o takes field
  o mod 8 of the word in packed row o div 8, so the integer weight of (o, k) is the signed value of that field of
  Q[o div 8, k]. The dequantized weight multiplies it by the scale of the group of 128 input features that holds k,
  S[o, k div 128]. The result at (t, o) is the inner product of row t of X with the dequantized row o, plus B[o]:

      G[t, o] = (Σ_{k < 4096} X[t, k] · (float(nib (o mod 8) Q[o div 8, k]) · S[o, k div 128])) + B[o]

  over the extended reals, where an integer-to-float conversion is exact.
-/
import Idealize.ShloMosaic.PureOps.Ideal
import Idealize.ShloMosaic.Lib.ValueIdx

noncomputable section

namespace Cert.Dequant

open Idealize.ShloMosaic Idealize.ShloMosaic.ValueIdx

/-- The signed 4-bit field `j` of a 32-bit word (bits `4j … 4j+3`, bit `4j+3` the sign), as a 32-bit word. -/
def nib (j : Nat) (q : BitVec 32) : BitVec 32 := (q.extractLsb' (4 * j) 4).signExtend 32

/-- The dequantized weight of output feature `o` and input feature `k`. -/
def wt (Q : (⟨2, ![1536, 4096]⟩ : Shape).Idx → BitVec 32) (S : (⟨2, ![12288, 32]⟩ : Shape).Idx → EReal)
    (o : Fin 12288) (k : Fin 4096) : EReal :=
  (FloatOps.sitofp (F := Ideal) .f32 (nib (o.val % 8) (Q (ix2 (⟨o.val / 8, by omega⟩ : Fin 1536) k))) : EReal)
    * S (ix2 o (⟨k.val / 128, by omega⟩ : Fin 32))

/-- The result array: `X · Wᵀ + B` with `W` the dequantized weights. -/
def G (X : (⟨2, ![4096, 4096]⟩ : Shape).Idx → EReal) (Q : (⟨2, ![1536, 4096]⟩ : Shape).Idx → BitVec 32)
    (S : (⟨2, ![12288, 32]⟩ : Shape).Idx → EReal) (B : (⟨1, ![12288]⟩ : Shape).Idx → EReal) :
    (⟨2, ![4096, 12288]⟩ : Shape).Idx → EReal :=
  fun i => (∑ k : Fin 4096, X (ix2 (i 0) k) * wt Q S (i 1) k) + B (ix1 (i 1))

end Cert.Dequant

end
-- ==== Proof.Nibble.lean ====
/-
  Two ways to read the signed 4-bit field j of a 32-bit word, both equal to `nib j`.

  Shifting left by 28 − 4j moves bit 4j+3 to bit 31 and bit 4j to bit 28; an arithmetic shift right by 28 then brings
  the field down to bits 0 … 3 and fills bits 4 … 31 with copies of its top bit. Shifting right by 4j and masking
  with 15 gives the field's unsigned value a in 0 … 15; a exceeds 7 exactly when the top bit is set, and then
  a − 16 is the signed value.
-/
import proofs.«427488_j32341103739318_3_alg».proof.Proof.Spec

namespace Cert.Dequant

open Idealize.ShloMosaic

/-- Bit i of `(q <<< (28 − 4j)) >>ₛ 28` is bit 4j+i of q for i < 4 and bit 4j+3 of q for i ≥ 4: exactly the bits of the
    sign-extended field. -/
private theorem shl_sshr_field (j : Nat) (hj : j < 8) (q : BitVec 32) :
    (q <<< (28 - 4 * j)).sshiftRight 28 = (q.extractLsb' (4 * j) 4).signExtend 32 := by
  apply BitVec.eq_of_getLsbD_eq
  intro i hi
  rw [BitVec.getLsbD_sshiftRight, BitVec.getLsbD_signExtend, BitVec.msb_eq_getLsbD_last,
    BitVec.msb_eq_getLsbD_last, BitVec.getLsbD_extractLsb', BitVec.getLsbD_extractLsb',
    BitVec.getLsbD_shiftLeft, BitVec.getLsbD_shiftLeft]
  by_cases h4 : i < 4
  · have e : 28 + i - (28 - 4 * j) = 4 * j + i := by omega
    simp [h4, hi, e, show 28 + i < 32 by omega, show ¬ (32 ≤ i) by omega,
      show ¬ (28 + i < 28 - 4 * j) by omega]
  · have e : 32 - 1 - (28 - 4 * j) = 4 * j + (4 - 1) := by omega
    simp [h4, hi, e, show ¬ (28 + i < 32) by omega, show ¬ (32 ≤ i) by omega,
      show ¬ (32 - 1 < 28 - 4 * j) by omega]

/-- Bit i of `(q >>ₛ 4j) &&& 15` is bit 4j+i of q for i < 4 (4j+i ≤ 31, so the shift has not yet reached the sign
    fill) and 0 for i ≥ 4 (15 = 2⁴ − 1 has only bits 0 … 3): the zero-extended field. -/
private theorem sshr_mask_field (j : Nat) (hj : j < 8) (q : BitVec 32) :
    q.sshiftRight (4 * j) &&& 15#32 = (q.extractLsb' (4 * j) 4).setWidth 32 := by
  apply BitVec.eq_of_getLsbD_eq
  intro i hi
  have h15 : (15 : Nat).testBit i = decide (i < 4) := Nat.testBit_two_pow_sub_one 4 i
  rw [BitVec.getLsbD_and, BitVec.getLsbD_sshiftRight, BitVec.getLsbD_setWidth, BitVec.getLsbD_extractLsb',
    BitVec.getLsbD_ofNat, h15]
  by_cases h4 : i < 4
  · simp [h4, hi, show 4 * j + i < 32 by omega, show ¬ (32 ≤ i) by omega]
  · simp [h4]

/-- For each of the sixteen 4-bit words: its unsigned value a, lowered by 16 when a > 7, is its signed value. -/
private theorem field_signed : ∀ n : BitVec 4,
    (if (7#32).slt (n.setWidth 32) then n.setWidth 32 - 16#32 else n.setWidth 32) = n.signExtend 32 := by
  decide

/-- Shift the field's top bit up to bit 31, then shift arithmetically back down by 28. -/
theorem kernel_nib (j : Nat) (hj : j < 8) (q : BitVec 32) :
    IntOp.shrsi .vector (IntOp.shli .vector q (BitVec.ofNat 32 (28 - 4 * j))) 28#32 = nib j q := by
  have hs : (BitVec.ofNat 32 (28 - 4 * j)).toNat = 28 - 4 * j := by
    rw [BitVec.toNat_ofNat]; omega
  have h28 : (28#32).toNat = 28 := rfl
  unfold IntOp.shrsi IntOp.shli nib
  rw [if_pos (by omega), if_pos (by omega), BitVec.sshiftRight_eq', BitVec.shiftLeft_eq', hs, h28]
  exact shl_sshr_field j hj q

/-- Shift down by 4j, mask with 15, and subtract 16 when the value exceeds 7. -/
theorem ref_nib (j : Nat) (hj : j < 8) (q : BitVec 32) :
    Scalar.select (IntOp.cmpi .sgt (IntOp.andi (IntOp.shrsi .host q (IntOp.muli (BitVec.ofNat 32 j) 4#32)) 15#32) 7#32)
      (IntOp.subi (IntOp.andi (IntOp.shrsi .host q (IntOp.muli (BitVec.ofNat 32 j) 4#32)) 15#32) 16#32)
      (IntOp.andi (IntOp.shrsi .host q (IntOp.muli (BitVec.ofNat 32 j) 4#32)) 15#32) = nib j q := by
  have hm : (IntOp.muli (BitVec.ofNat 32 j) 4#32).toNat = 4 * j := by
    unfold IntOp.muli
    rw [BitVec.toNat_mul, BitVec.toNat_ofNat, BitVec.toNat_ofNat]; omega
  have hsh : IntOp.shrsi .host q (IntOp.muli (BitVec.ofNat 32 j) 4#32) = q.sshiftRight (4 * j) := by
    unfold IntOp.shrsi
    rw [if_pos (by omega), BitVec.sshiftRight_eq', hm]
  rw [hsh]
  unfold IntOp.andi IntOp.subi IntOp.cmpi Scalar.select nib
  rw [sshr_mask_field j hj q, ← field_signed]
  cases h : (7#32).slt ((q.extractLsb' (4 * j) 4).setWidth 32) <;> simp [h]

theorem kernel_nib0 (q : BitVec 32) : IntOp.shrsi .vector (IntOp.shli .vector q 28#32) 28#32 = nib 0 q := kernel_nib 0 (by decide) q
theorem kernel_nib1 (q : BitVec 32) : IntOp.shrsi .vector (IntOp.shli .vector q 24#32) 28#32 = nib 1 q := kernel_nib 1 (by decide) q
theorem kernel_nib2 (q : BitVec 32) : IntOp.shrsi .vector (IntOp.shli .vector q 20#32) 28#32 = nib 2 q := kernel_nib 2 (by decide) q
theorem kernel_nib3 (q : BitVec 32) : IntOp.shrsi .vector (IntOp.shli .vector q 16#32) 28#32 = nib 3 q := kernel_nib 3 (by decide) q
theorem kernel_nib4 (q : BitVec 32) : IntOp.shrsi .vector (IntOp.shli .vector q 12#32) 28#32 = nib 4 q := kernel_nib 4 (by decide) q
theorem kernel_nib5 (q : BitVec 32) : IntOp.shrsi .vector (IntOp.shli .vector q 8#32) 28#32 = nib 5 q := kernel_nib 5 (by decide) q
theorem kernel_nib6 (q : BitVec 32) : IntOp.shrsi .vector (IntOp.shli .vector q 4#32) 28#32 = nib 6 q := kernel_nib 6 (by decide) q
theorem kernel_nib7 (q : BitVec 32) : IntOp.shrsi .vector (IntOp.shli .vector q 0#32) 28#32 = nib 7 q := kernel_nib 7 (by decide) q

end Cert.Dequant
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.Chunk.lean ====
/-
  One K-chunk of the kernel body, as a function of the blocks it loads.

  A chunk takes 1024 consecutive input features. From the 32 × 1024 packed words it makes eight 32 × 1024 planes, plane j
  holding the signed 4-bit field j of every word, and interleaves them along a middle axis to 32 × 8 × 1024, which read as
  256 × 1024 puts field j of packed row r in row 8r + j. Read as 256 × 8 × 128 (eight groups of 128 features) it is
  multiplied by the chunk's 256 × 8 scales, one per row and group, giving the dequantized 256 × 1024 weights. The
  accumulator gains the product of the 1024 × 1024 activation chunk with those weights, contracted over the 1024 features.
  At the ideal values the narrowing of the weights to a shorter float format is the identity, so entry (p, q) of the step is

      acc[p, q] + Σ_{k < 1024} x[p, k] · (float(nib (q mod 8) qw[q div 8, k]) · s[q, k div 128]).
-/
import proofs.«427488_j32341103739318_3_alg».proof.Proof.Gen.KernelIdeal.Skeleton
import proofs.«427488_j32341103739318_3_alg».proof.Proof.Spec
import proofs.«427488_j32341103739318_3_alg».proof.Proof.Nibble
import proofs.«427488_j32341103739318_3_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

noncomputable section

namespace Cert.Dequant.KernelSide

open Cert.KernelIdeal Cert.KernelIdeal.Gen Idealize.ShloMosaic Idealize.ShloMosaic.TcCoe Idealize.SL.Sem
open Idealize.ShloMosaic.ValueIdx

variable {F : FTy → Type} [FloatOps F]

/-! ## The chunk step, in the body's own operations -/

/-- One plane: every packed word shifted left by `sh`, then arithmetically right by 28, as floats. -/
def plane (sh : BitVec 32) (qw : Vec F S32x1024 .i32) : FVec F S32x1024 .f32 :=
  sitofp .f32 (shrsi (shli qw (broadcast S32x1024 sh)) (broadcast S32x1024 28#32))

/-- The eight planes (left shifts 28, 24, …, 0: fields 0, 1, …, 7) interleaved along the middle axis. -/
def planes (qw : Vec F S32x1024 .i32) : FVec F S32x8x1024 .f32 :=
  concatenate S32x8x1024 1 [⟨S32x1x1024, shapeCast S32x1x1024 (plane 28#32 qw) shapeCasts_S32x1024_S32x1x1024⟩,
    ⟨S32x1x1024, shapeCast S32x1x1024 (plane 24#32 qw) shapeCasts_S32x1024_S32x1x1024⟩,
    ⟨S32x1x1024, shapeCast S32x1x1024 (plane 20#32 qw) shapeCasts_S32x1024_S32x1x1024⟩,
    ⟨S32x1x1024, shapeCast S32x1x1024 (plane 16#32 qw) shapeCasts_S32x1024_S32x1x1024⟩,
    ⟨S32x1x1024, shapeCast S32x1x1024 (plane 12#32 qw) shapeCasts_S32x1024_S32x1x1024⟩,
    ⟨S32x1x1024, shapeCast S32x1x1024 (plane 8#32 qw) shapeCasts_S32x1024_S32x1x1024⟩,
    ⟨S32x1x1024, shapeCast S32x1x1024 (plane 4#32 qw) shapeCasts_S32x1024_S32x1x1024⟩,
    ⟨S32x1x1024, shapeCast S32x1x1024 (plane 0#32 qw) shapeCasts_S32x1024_S32x1x1024⟩]
    concatenates_S32x1x1024_S32x1x1024_S32x1x1024_S32x1x1024_S32x1x1024_S32x1x1024_S32x1x1024_S32x1x1024_S32x8x1024_d1

/-- The chunk's dequantized weights: the interleaved fields times the per-group scales. -/
def deq (qw : Vec F S32x1024 .i32) (s : Vec F S256x8 .f32) : FVec F S256x1024 .f32 :=
  shapeCast S256x1024
    (mulf (shapeCast S256x8x128 (shapeCast S256x1024 (planes qw) shapeCasts_S32x8x1024_S256x1024) shapeCasts_S256x1024_S256x8x128)
      (broadcastTo S256x8x128 (shapeCast S256x8x1 s shapeCasts_S256x8_S256x8x1) broadcasts_S256x8x1_S256x8x128))
    shapeCasts_S256x8x128_S256x1024

/-- The accumulator after the chunk: what it held plus activations times dequantized weights. -/
def chunk (qw : Vec F S32x1024 .i32) (s : Vec F S256x8 .f32) (x : Vec F S1024x1024 .bf16) (acc : Vec F S1024x256 .f32) :
    FVec F S1024x256 .f32 :=
  shapeCast S1024x256
    (addf acc (matmul dot_S1024x1024_S256x1024_S1024x256_1_1_0_0_n_n none (shapeCast S1024x1024 x shapeCasts_S1024x1024_S1024x1024)
      (truncf .bf16 (deq qw s) bitsLt_bf16_f32) (constant S1024x256 .f32 0x00000000#32)))
    shapeCasts_S1024x256_S1024x256

/-! ## The body's four stored accumulator values are chunk steps -/

theorem pay_chunk0 (qw : Vec F S32x1024 .i32) (s : Vec F S256x8 .f32) (x : Vec F S1024x1024 .bf16) (acc : Vec F S1024x256 .f32) :
    k0_pay12 qw (k0_pay4 qw) (k0_pay5 qw) (k0_pay6 qw) (k0_pay7 qw) (k0_pay8 qw) (k0_pay9 qw) (k0_pay10 qw) k0_pay11 s x acc
      = chunk qw s x acc := rfl

theorem pay_chunk1 (qw : Vec F S32x1024 .i32) (s : Vec F S256x8 .f32) (x : Vec F S1024x1024 .bf16) (acc : Vec F S1024x256 .f32) :
    k0_pay16 (k0_pay15 qw (k0_pay13 qw) (k0_pay14 qw) s) x acc = chunk qw s x acc := rfl

theorem pay_chunk2 (qw : Vec F S32x1024 .i32) (s : Vec F S256x8 .f32) (x : Vec F S1024x1024 .bf16) (acc : Vec F S1024x256 .f32) :
    k0_pay23 qw (k0_pay17 qw) (k0_pay18 qw) (k0_pay19 qw) (k0_pay20 qw) (k0_pay21 qw) (k0_pay22 qw) 28#32 s x acc
      = chunk qw s x acc := rfl

theorem pay_chunk3 (qw : Vec F S32x1024 .i32) (s : Vec F S256x8 .f32) (x : Vec F S1024x1024 .bf16) (acc : Vec F S1024x256 .f32) :
    k0_pay1 (k0_pay26 qw (k0_pay24 qw) k0_pay25) s x acc = chunk qw s x acc := rfl

/-! ## The chunk step read at an index, at the ideal values -/

/-- The left shift of plane `j`: 28 − 4j. -/
def shamt : Fin 8 → BitVec 32 := ![28#32, 24#32, 20#32, 16#32, 12#32, 8#32, 4#32, 0#32]

/-- The interleaving as a concatenation of the planes indexed by the field number. -/
theorem planes_ofFn (qw : Vec F S32x1024 .i32) :
    planes qw = concatenate S32x8x1024 1
      (List.ofFn fun n : Fin 8 => (⟨S32x1x1024, shapeCast S32x1x1024 (plane (shamt n) qw) shapeCasts_S32x1024_S32x1x1024⟩ : (s : Shape) × (s.Idx → F .f32)))
      concatenates_S32x1x1024_S32x1x1024_S32x1x1024_S32x1x1024_S32x1x1024_S32x1x1024_S32x1x1024_S32x1x1024_S32x8x1024_d1 := rfl

/-- Entry (r, j, k) of the interleaved planes is field `j` of word (r, k), as a float. -/
theorem planes_apply (qw : Vec Ideal S32x1024 .i32) (r : Fin 32) (j : Fin 8) (k : Fin 1024) :
    planes (F := Ideal) qw (ix3 r j k) = FloatOps.sitofp (F := Ideal) .f32 (nib j.val (qw (ix2 r k))) := by
  rw [planes_ofFn]
  rw [concatenate_ofFn_unit_apply (t := S32x8x1024) (s₁ := S32x1x1024) (α := Ideal .f32) (1 : Fin 3)
    (fun n : Fin 8 => shapeCast S32x1x1024 (plane (F := Ideal) (shamt n) qw) shapeCasts_S32x1024_S32x1x1024)
    (show Shape.Concatenates ((List.ofFn fun n : Fin 8 => (⟨S32x1x1024, shapeCast S32x1x1024 (plane (F := Ideal) (shamt n) qw) shapeCasts_S32x1024_S32x1x1024⟩ : (s : Shape) × (s.Idx → Ideal .f32))).map (·.1)) S32x8x1024 1
      from concatenates_S32x1x1024_S32x1x1024_S32x1x1024_S32x1x1024_S32x1x1024_S32x1x1024_S32x1x1024_S32x1x1024_S32x8x1024_d1)
    rfl rfl (ix3 r j k) j rfl (ix3 r (0 : Fin 1) k)
    (fun b hb => by
      match b with
      | ⟨0, _⟩ => rfl
      | ⟨1, _⟩ => exact absurd rfl hb
      | ⟨2, _⟩ => rfl)]
  rw [shapeCast_apply (plane (F := Ideal) (shamt j) qw) shapeCasts_S32x1024_S32x1x1024 (ix3 r (0 : Fin 1) k) (ix2 r k)
    (by rewrite [Shape.rowMajor_val_three, Shape.rowMajor_val_two]
        show r.val * 1024 + k.val = (r.val * 1 + 0) * 1024 + k.val
        omega)]
  show FloatOps.sitofp (F := Ideal) .f32 (IntOp.shrsi .vector (IntOp.shli .vector (qw (ix2 r k)) (shamt j)) 28#32) = _
  refine congrArg _ ?_
  fin_cases j
  · exact kernel_nib0 _
  · exact kernel_nib1 _
  · exact kernel_nib2 _
  · exact kernel_nib3 _
  · exact kernel_nib4 _
  · exact kernel_nib5 _
  · exact kernel_nib6 _
  · exact kernel_nib7 _

/-- Entry (q, k) of the chunk's dequantized weights: field q mod 8 of word (q div 8, k), times the scale of row q and
    of the group of 128 features holding k. -/
theorem deq_apply (qw : Vec Ideal S32x1024 .i32) (s : Vec Ideal S256x8 .f32) (q : Fin 256) (k : Fin 1024) :
    deq (F := Ideal) qw s (ix2 q k)
      = FloatOps.sitofp (F := Ideal) .f32 (nib (q.val % 8) (qw (ix2 (⟨q.val / 8, by omega⟩ : Fin 32) k)))
        * s (ix2 q (⟨k.val / 128, by omega⟩ : Fin 8)) := by
  have hq := q.isLt
  have hk := k.isLt
  unfold deq
  rw [shapeCast_apply _ shapeCasts_S256x8x128_S256x1024 (ix2 q k)
    (ix3 q (⟨k.val / 128, by omega⟩ : Fin 8) (⟨k.val % 128, by omega⟩ : Fin 128))
    (by rewrite [Shape.rowMajor_val_three, Shape.rowMajor_val_two]
        show (q.val * 8 + k.val / 128) * 128 + k.val % 128 = q.val * 1024 + k.val
        omega)]
  rw [mulf_apply]
  rw [shapeCast_apply _ shapeCasts_S256x1024_S256x8x128
    (ix3 q (⟨k.val / 128, by omega⟩ : Fin 8) (⟨k.val % 128, by omega⟩ : Fin 128)) (ix2 q k)
    (by rewrite [Shape.rowMajor_val_three, Shape.rowMajor_val_two]
        show q.val * 1024 + k.val = (q.val * 8 + k.val / 128) * 128 + k.val % 128
        omega)]
  rw [shapeCast_apply _ shapeCasts_S32x8x1024_S256x1024 (ix2 q k)
    (ix3 (⟨q.val / 8, by omega⟩ : Fin 32) (⟨q.val % 8, by omega⟩ : Fin 8) k)
    (by rewrite [Shape.rowMajor_val_three, Shape.rowMajor_val_two]
        show (q.val / 8 * 8 + q.val % 8) * 1024 + k.val = q.val * 1024 + k.val
        omega)]
  rw [planes_apply]
  rw [broadcastTo_apply _ broadcasts_S256x8x1_S256x8x128
    (ix3 q (⟨k.val / 128, by omega⟩ : Fin 8) (⟨k.val % 128, by omega⟩ : Fin 128))
    (ix3 q (⟨k.val / 128, by omega⟩ : Fin 8) (0 : Fin 1))
    (fun a => by
      match a with
      | ⟨0, _⟩ => show q.val = if (256 : Nat) = 1 then 0 else q.val; rw [if_neg (by decide)]
      | ⟨1, _⟩ => show k.val / 128 = if (8 : Nat) = 1 then 0 else k.val / 128; rw [if_neg (by decide)]
      | ⟨2, _⟩ => show 0 = if (1 : Nat) = 1 then 0 else k.val % 128; rw [if_pos rfl])]
  rw [shapeCast_apply _ shapeCasts_S256x8_S256x8x1 (ix3 q (⟨k.val / 128, by omega⟩ : Fin 8) (0 : Fin 1))
    (ix2 q (⟨k.val / 128, by omega⟩ : Fin 8))
    (by rewrite [Shape.rowMajor_val_three, Shape.rowMajor_val_two]
        show q.val * 8 + k.val / 128 = (q.val * 8 + k.val / 128) * 1 + 0
        omega)]

/-! The product's dimension numbers: both operands contract their second axis; the first axis of the left operand is
    the result's first, the first axis of the right operand the result's second. -/

theorem lhs_axis0 (j : S1024x256.Idx) (c : dot_S1024x1024_S256x1024_S1024x256_1_1_0_0_n_n.contr.Idx) :
    (dot_S1024x1024_S256x1024_S1024x256_1_1_0_0_n_n.lhsIdx j c 0).val = (j 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl

theorem lhs_axis1 (j : S1024x256.Idx) (c : dot_S1024x1024_S256x1024_S1024x256_1_1_0_0_n_n.contr.Idx) :
    (dot_S1024x1024_S256x1024_S1024x256_1_1_0_0_n_n.lhsIdx j c 1).val = (c ⟨0, by decide⟩).val :=
  dot_S1024x1024_S256x1024_S1024x256_1_1_0_0_n_n.lhsIdx_val_of_single rfl j c

theorem rhs_axis0 (j : S1024x256.Idx) (c : dot_S1024x1024_S256x1024_S1024x256_1_1_0_0_n_n.contr.Idx) :
    (dot_S1024x1024_S256x1024_S1024x256_1_1_0_0_n_n.rhsIdx j c 0).val = (j 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl

theorem rhs_axis1 (j : S1024x256.Idx) (c : dot_S1024x1024_S256x1024_S1024x256_1_1_0_0_n_n.contr.Idx) :
    (dot_S1024x1024_S256x1024_S1024x256_1_1_0_0_n_n.rhsIdx j c 1).val = (c ⟨0, by decide⟩).val :=
  dot_S1024x1024_S256x1024_S1024x256_1_1_0_0_n_n.rhsIdx_val_of_single rfl j c

/-- Entry (p, q) of the accumulator after a chunk: its earlier value plus the inner product, over the chunk's 1024
    features, of activation row p with dequantized weight row q. -/
theorem chunk_apply (qw : Vec Ideal S32x1024 .i32) (s : Vec Ideal S256x8 .f32) (x : Vec Ideal S1024x1024 .bf16)
    (acc : Vec Ideal S1024x256 .f32) (p : Fin 1024) (q : Fin 256) :
    chunk (F := Ideal) qw s x acc (ix2 p q)
      = acc (ix2 p q) + ∑ k : Fin 1024, x (ix2 p k) * deq (F := Ideal) qw s (ix2 q k) := by
  unfold chunk
  rw [shapeCast_self, addf_apply, shapeCast_self]
  refine congrArg (acc (ix2 p q) + ·) ?_
  have hk := fun c : Fin 1024 => ValueIdx.contrEquiv1_symm_val dot_S1024x1024_S256x1024_S1024x256_1_1_0_0_n_n 1024 rfl rfl c
  rw [Cert.Dots.matmul_zero_apply_of dot_S1024x1024_S256x1024_S1024x256_1_1_0_0_n_n 1024 rfl rfl none x
    (truncf .bf16 (deq (F := Ideal) qw s) bitsLt_bf16_f32) (ix2 p q) (fun c => ix2 p c) (fun c => ix2 q c)
    (fun c => funext fun a => Fin.ext (by
      match a with
      | ⟨0, _⟩ => exact lhs_axis0 _ _
      | ⟨1, _⟩ => exact (lhs_axis1 _ _).trans (hk c)))
    (fun c => funext fun a => Fin.ext (by
      match a with
      | ⟨0, _⟩ => exact rhs_axis0 _ _
      | ⟨1, _⟩ => exact (rhs_axis1 _ _).trans (hk c)))]
  rfl

end Cert.Dequant.KernelSide

end
-- ==== Proof.Pieces.lean ====
/-
  What one run of the kernel body leaves in the output block, as a function of the four input blocks.

  The body zeroes a 1024 × 256 accumulator, then for each of the four K-chunks c = 0 … 3 adds the chunk step of the packed
  words' columns 1024c … 1024c + 1023, the scales' groups 8c … 8c + 7 and the activations' columns 1024c … 1024c + 1023,
  reading the accumulator back each time, and finally stores the accumulator plus the bias row broadcast down the rows.
  Each read of the accumulator follows a store of the whole accumulator, so it reads what was last stored.
-/
import proofs.«427488_j32341103739318_3_alg».proof.Proof.Gen.KernelIdeal.Frame
import proofs.«427488_j32341103739318_3_alg».proof.Proof.Chunk
import Idealize.ShloMosaic.Lib.Pipeline.Value

set_option maxRecDepth 16384

noncomputable section

namespace Cert.Dequant.KernelSide

open Cert.KernelIdeal Cert.KernelIdeal.Gen Idealize.ShloMosaic Idealize.ShloMosaic.TcCoe Idealize.ShloMosaic.Tactic
open Idealize.SL Idealize.SL.Sem

variable {F : FTy → Type} [FloatOps F]

theorem zero_offsets : (![0, 0] : Fin 2 → Nat) = fun _ => 0 := funext fun a => by fin_cases a <;> rfl

/-- The accumulator after all four chunks, from zero. -/
def acc4 (x0 : Vec F S1024x4096 .bf16) (x1 : Vec F S32x4096 .i32) (x2 : Vec F S256x32 .f32) : FVec F S1024x256 .f32 :=
  chunk (View.ld x1 (Rect.unit ![0, 3072] ![32, 1024] inb_S32x4096_S32x1024_0_3072)) (View.ld x2 (Rect.unit ![0, 24] ![256, 8] inb_S256x32_S256x8_0_24)) (View.ld x0 (Rect.unit ![0, 3072] ![1024, 1024] inb_S1024x4096_S1024x1024_0_3072))
    (chunk (View.ld x1 (Rect.unit ![0, 2048] ![32, 1024] inb_S32x4096_S32x1024_0_2048)) (View.ld x2 (Rect.unit ![0, 16] ![256, 8] inb_S256x32_S256x8_0_16)) (View.ld x0 (Rect.unit ![0, 2048] ![1024, 1024] inb_S1024x4096_S1024x1024_0_2048))
      (chunk (View.ld x1 (Rect.unit ![0, 1024] ![32, 1024] inb_S32x4096_S32x1024_0_1024)) (View.ld x2 (Rect.unit ![0, 8] ![256, 8] inb_S256x32_S256x8_0_8)) (View.ld x0 (Rect.unit ![0, 1024] ![1024, 1024] inb_S1024x4096_S1024x1024_0_1024))
        (chunk (View.ld x1 (Rect.unit ![0, 0] ![32, 1024] inb_S32x4096_S32x1024_0_0)) (View.ld x2 (Rect.unit ![0, 0] ![256, 8] inb_S256x32_S256x8_0_0)) (View.ld x0 (Rect.unit ![0, 0] ![1024, 1024] inb_S1024x4096_S1024x1024_0_0)) (k0_pay3 (F := F)))))

/-- The output block the body stores: the accumulator plus the bias row. -/
def body (x0 : Vec F S1024x4096 .bf16) (x1 : Vec F S32x4096 .i32) (x2 : Vec F S256x32 .f32) (x3 : Vec F S1x256 .f32) :
    FVec F S1024x256 .f32 :=
  k0_pay2 (acc4 x0 x1 x2) x3

/-- What the run leaves in the output's staging buffer is `body` of the input blocks. -/
theorem out_piece (c : Dev nD) (i : grid0.Coords) (arg2 : Memref sig .tc .vmem S1024x4096 .bf16) (harg2 : arg2.IsWhole) (arg3 : Memref sig .tc .vmem S32x4096 .i32) (harg3 : arg3.IsWhole) (arg4 : Memref sig .tc .vmem S256x32 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)
    (x0 : Vec F S1024x4096 .bf16) (x1 : Vec F S32x4096 .i32) (x2 : Vec F S256x32 .f32) (x3 : Vec F S1x256 .f32) :
    out0_A_4 c i arg2 harg2 arg3 harg3 arg4 harg4 arg5 harg5 arg6 harg6 arg7 harg7 x0 x1 x2 x3 = body x0 x1 x2 x3 := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero zero_offsets]
  simp only [View.readAt_eq_ld, harg2.read_unread, harg3.read_unread, harg4.read_unread, harg5.read_unread,
    View.ld_unit_zero (S := S1x256) zero_offsets, View.readCov_cons_toLoadRect]
  rfl

end Cert.Dequant.KernelSide

end
-- ==== Proof.SumSplit.lean ====
/-
  A sum over 4096 positions, taken in four consecutive runs of 1024 and accumulated from zero, is the whole sum.

  Addition in a commutative monoid is associative with unit zero, so regrouping a finite sum into consecutive runs
  changes nothing; no cancellation or distributivity is used, so this holds for the extended reals too.
-/
import Mathlib.Algebra.BigOperators.Fin

namespace Cert.Dequant

open scoped BigOperators

/-- A sum over `a + b` positions is the sum over the first `a` plus the sum over the last `b`. -/
theorem sum_fin_split_at {M : Type*} [AddCommMonoid M] (a b n : Nat) (h : a + b = n) (f : Fin n → M) :
    ∑ k : Fin n, f k = (∑ k : Fin a, f ⟨k.val, by omega⟩) + ∑ k : Fin b, f ⟨a + k.val, by omega⟩ := by
  subst h
  exact Fin.sum_univ_add f

theorem sum_four_chunks {M : Type*} [AddCommMonoid M] (f : Fin 4096 → M) :
    ((((0 + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩)
      = ∑ k : Fin 4096, f k := by
  -- peel the last run of 1024 off 4096, then off 3072, then off 2048
  have h1 : ∑ k : Fin 4096, f k
      = (∑ k : Fin 3072, f ⟨k.val, by omega⟩) + ∑ k : Fin 1024, f ⟨3072 + k.val, by omega⟩ :=
    sum_fin_split_at 3072 1024 4096 rfl f
  have h2 : ∑ k : Fin 3072, f ⟨k.val, by omega⟩
      = (∑ k : Fin 2048, f ⟨k.val, by omega⟩) + ∑ k : Fin 1024, f ⟨2048 + k.val, by omega⟩ :=
    sum_fin_split_at 2048 1024 3072 rfl fun k => f ⟨k.val, by omega⟩
  have h3 : ∑ k : Fin 2048, f ⟨k.val, by omega⟩
      = (∑ k : Fin 1024, f ⟨k.val, by omega⟩) + ∑ k : Fin 1024, f ⟨1024 + k.val, by omega⟩ :=
    sum_fin_split_at 1024 1024 2048 rfl fun k => f ⟨k.val, by omega⟩
  rw [zero_add, h1, h2, h3]

end Cert.Dequant
-- ==== Proof.BlockValue.lean ====
/-
  The output block at an entry, at the ideal values.

  Entry (p, q) of the block the body stores is, over the block's own coordinates,

      (Σ_{k < 4096} x[p, k] · (float(nib (q mod 8) w[q div 8, k]) · s[q, k div 128])) + b[0, q]

  with x the 1024 × 4096 activation block, w the 32 × 4096 packed-word block, s the 256 × 32 scale block and b the bias row.
  Chunk c contributes the terms k = 1024c … 1024c + 1023 (feature 1024c + k' lies in group 8c + k' div 128), and the four
  contributions, accumulated from zero, make up the whole sum.
-/
import proofs.«427488_j32341103739318_3_alg».proof.Proof.Pieces
import proofs.«427488_j32341103739318_3_alg».proof.Proof.SumSplit

noncomputable section

namespace Cert.Dequant.KernelSide

open Cert.KernelIdeal Cert.KernelIdeal.Gen Idealize.ShloMosaic Idealize.ShloMosaic.TcCoe Idealize.SL.Sem
open Idealize.ShloMosaic.ValueIdx

/-- A load of `n` columns starting at column `off` reads the columns `off … off + n − 1`. -/
theorem ld_cols {Val : EltTy → Type} {e : EltTy} {R C n : Nat} (X : (⟨2, ![R, C]⟩ : Shape).Idx → Val e) (off : Nat)
    (inb : ∀ a, (![0, off] : Fin 2 → Nat) a + (![R, n] : Fin 2 → Nat) a ≤ (⟨2, ![R, C]⟩ : Shape).size a)
    (r : Fin R) (k : Fin n) (h : off + k.val < C) :
    View.ld X (Rect.unit ![0, off] ![R, n] inb) (ix2 r k) = X (ix2 r ⟨off + k.val, h⟩) := by
  show X ((Rect.unit (s := ⟨2, ![R, C]⟩) ![0, off] ![R, n] inb).idx (ix2 r k)) = _
  refine congrArg X (funext fun a => Fin.ext ?_)
  match a with
  | ⟨0, _⟩ => show 0 + 1 * r.val = r.val; omega
  | ⟨1, _⟩ => show off + 1 * k.val = off + k.val; omega

/-- Term `k` of the inner product at (p, q): activation (p, k) times the dequantized weight of block row q and feature k. -/
def term (x0 : Vec Ideal S1024x4096 .bf16) (x1 : Vec Ideal S32x4096 .i32) (x2 : Vec Ideal S256x32 .f32)
    (p : Fin 1024) (q : Fin 256) (k : Fin 4096) : EReal :=
  x0 (ix2 p k) * (FloatOps.sitofp (F := Ideal) .f32 (nib (q.val % 8) (x1 (ix2 (⟨q.val / 8, by omega⟩ : Fin 32) k)))
    * x2 (ix2 q (⟨k.val / 128, by omega⟩ : Fin 32)))

/-- The chunk at column offset `off` (group offset `goff`, 128·goff = off) contributes the terms off … off + 1023. -/
theorem chunk_terms (x0 : Vec Ideal S1024x4096 .bf16) (x1 : Vec Ideal S32x4096 .i32) (x2 : Vec Ideal S256x32 .f32)
    (p : Fin 1024) (q : Fin 256) (off goff : Nat) (hoff : off + 1024 ≤ 4096) (hg : goff * 128 = off)
    (inbx : ∀ a, (![0, off] : Fin 2 → Nat) a + (![1024, 1024] : Fin 2 → Nat) a ≤ S1024x4096.size a)
    (inbq : ∀ a, (![0, off] : Fin 2 → Nat) a + (![32, 1024] : Fin 2 → Nat) a ≤ S32x4096.size a)
    (inbs : ∀ a, (![0, goff] : Fin 2 → Nat) a + (![256, 8] : Fin 2 → Nat) a ≤ S256x32.size a) :
    (∑ k : Fin 1024, (View.ld x0 (Rect.unit ![0, off] ![1024, 1024] inbx) : Vec Ideal S1024x1024 .bf16) (ix2 p k)
        * deq (F := Ideal) (View.ld x1 (Rect.unit ![0, off] ![32, 1024] inbq)) (View.ld x2 (Rect.unit ![0, goff] ![256, 8] inbs)) (ix2 q k))
      = ∑ k : Fin 1024, term x0 x1 x2 p q ⟨off + k.val, by have := k.isLt; omega⟩ := by
  have hq := q.isLt
  refine Finset.sum_congr rfl fun k _ => ?_
  have hk := k.isLt
  rw [deq_apply]
  rw [ld_cols x0 off inbx p k (by omega), ld_cols x1 off inbq (⟨q.val / 8, by omega⟩ : Fin 32) k (by omega),
    ld_cols x2 goff inbs q (⟨k.val / 128, by omega⟩ : Fin 8) (by show goff + k.val / 128 < 32; omega)]
  unfold term
  refine congrArg (x0 (ix2 p ⟨off + k.val, _⟩) * ·) (congrArg (_ * ·) (congrArg x2 ?_))
  refine congrArg (ix2 q) (Fin.ext ?_)
  show goff + k.val / 128 = (off + k.val) / 128
  omega

/-- Entry (p, q) of the stored output block: the whole inner product over the 4096 features, plus the bias entry. -/
theorem body_apply (x0 : Vec Ideal S1024x4096 .bf16) (x1 : Vec Ideal S32x4096 .i32) (x2 : Vec Ideal S256x32 .f32)
    (x3 : Vec Ideal S1x256 .f32) (p : Fin 1024) (q : Fin 256) :
    body (F := Ideal) x0 x1 x2 x3 (ix2 p q) = (∑ k : Fin 4096, term x0 x1 x2 p q k) + x3 (ix2 (0 : Fin 1) q) := by
  unfold body
  show FloatOps.addf (acc4 (F := Ideal) x0 x1 x2 (ix2 p q))
    (broadcastTo S1024x256 (shapeCast S1x256 x3 shapeCasts_S1x256_S1x256) broadcasts_S1x256_S1024x256 (ix2 p q)) = _
  rw [shapeCast_self, broadcastTo_apply x3 broadcasts_S1x256_S1024x256 (ix2 p q) (ix2 (0 : Fin 1) q)
    (fun a => by
      match a with
      | ⟨0, _⟩ => show 0 = if (1 : Nat) = 1 then 0 else p.val; rw [if_pos rfl]
      | ⟨1, _⟩ => show q.val = if (256 : Nat) = 1 then 0 else q.val; rw [if_neg (by decide)])]
  refine congrArg₂ (· + ·) ?_ rfl
  unfold acc4
  rw [chunk_apply, chunk_apply, chunk_apply, chunk_apply]
  have hz : k0_pay3 (F := Ideal) (ix2 p q) = 0 := by
    show Ideal.ofBits .f32 0x00000000#32 = 0
    exact Ideal.ofBits_zero_f32
  refine Eq.trans ?_ (sum_four_chunks (term x0 x1 x2 p q))
  refine congrArg₂ (· + ·) (congrArg₂ (· + ·) (congrArg₂ (· + ·) (congrArg₂ (· + ·) hz ?_) ?_) ?_) ?_
  · exact (chunk_terms x0 x1 x2 p q 0 0 (by omega) (by omega) _ _ _).trans
      (Finset.sum_congr rfl fun k _ => congrArg _ (Fin.ext (Nat.zero_add _)))
  · exact chunk_terms x0 x1 x2 p q 1024 8 (by omega) (by omega) _ _ _
  · exact chunk_terms x0 x1 x2 p q 2048 16 (by omega) (by omega) _ _ _
  · exact chunk_terms x0 x1 x2 p q 3072 24 (by omega) (by omega) _ _ _

end Cert.Dequant.KernelSide

end
-- ==== Proof.KernelValue.lean ====
/-
  The kernel's result array is `G` of the argument arrays.

  At grid point t the body runs on the blocks of the point: rows row t · of the activations, packed rows prow t · of the
  packed weights, rows col t · of the scales, columns col t · of the bias row. Output feature o = col t q has field
  o mod 8 = q mod 8 and packed row o div 8 = prow t (q div 8), because a block starts at a multiple of 256 features,
  that is of 32 packed rows. So term k of the block's inner product at (p, q) is term k of G at (row t p, col t q), the
  block's bias entry is the bias at col t q, and what point t writes back is its block of G. The 192 blocks tile the
  result, so the array ends holding G.
-/
import proofs.«427488_j32341103739318_3_alg».proof.Proof.Gen.KernelIdeal.Value
import proofs.«427488_j32341103739318_3_alg».proof.Proof.Geometry
import proofs.«427488_j32341103739318_3_alg».proof.Proof.HostPrefix
import proofs.«427488_j32341103739318_3_alg».proof.Proof.BlockValue

noncomputable section

namespace Cert.Dequant.KernelSide

open Cert.KernelIdeal Cert.KernelIdeal.Gen Idealize.ShloMosaic Idealize.ShloMosaic.TcCoe Idealize.SL.Sem
open Idealize.ShloMosaic.ValueIdx
open Idealize.ShloMosaic.Pipeline (Dat)
open Cert.Dequant.Geometry Cert.Dequant.HostPrefix

variable (m : (ℓ : Loc nD τ sig) → Buf (Elt Ideal) ℓ) (ρ : Dev nD → PrngReg)

/-- The four argument arrays on device `c`, at their literal types. -/
abbrev argX (c : Dev nD) : S4096x4096.Idx → EReal := m ((c : Thread nD τ).loc main_arg0)
abbrev argQ (c : Dev nD) : S1536x4096.Idx → BitVec 32 := m ((c : Thread nD τ).loc main_arg1)
abbrev argS (c : Dev nD) : S12288x32.Idx → EReal := m ((c : Thread nD τ).loc main_arg2)
abbrev argB (c : Dev nD) : S12288.Idx → EReal := m ((c : Thread nD τ).loc main_arg3)

/-- The result on device `c`: `G` of its four argument arrays. -/
abbrev result (c : Dev nD) : S4096x12288.Idx → EReal :=
  G (argX m c) (argQ m c) (argS m c) (argB m c)

/-- Term `k` of the block's inner product at (p, q) is term `k` of `G` at (row t p, col t q). -/
theorem term_eq (c : Dev nD) (t : Fin cfg0.N) (p : Fin 1024) (q : Fin 256) (k : Fin 4096) :
    term (xblk m c t) (qblk m c t) (sblk m c t) p q k
      = argX m c (ix2 (row t p) k) * wt (argQ m c) (argS m c) (col t q) k := by
  have hq := q.isLt
  have e : (⟨(col t q).val / 8, by have := (col t q).isLt; omega⟩ : Fin 1536) = prow t (⟨q.val / 8, by omega⟩ : Fin 32) :=
    Fin.ext (col_div t q)
  unfold term wt
  rw [xblk_read, act_at, qblk_read, V_main_arg1, sblk_read, V_main_arg2, col_mod, e]

/-- What point `t` writes back is its block of the result. -/
theorem flushed_eq (c : Dev nD) (t : Fin cfg0.N) :
    (dats m 0 c).flushed 4 t = ((cfg0.win 4).blk t).view.read (Elt Ideal) (result m c) := by
  rw [Cert.KernelIdeal.Value.flushed4_A]
  show (cfg0.win 4).cut (grid0.coords t) (out0_A_4 c (grid0.coords t) (ms0_0 t) (hs0_0 t) (ms0_1 t) (hs0_1 t) (ms0_2 t) (hs0_2 t)
    (ms0_3 t) (hs0_3 t) (ms0_4 t) (hs0_4 t) scM0_0 (Memref.isWhole_whole _) (xblk m c t) (qblk m c t) (sblk m c t) (bblk m c t)) = _
  rw [out_piece]
  funext y
  obtain ⟨p, q, rfl⟩ : ∃ (p : Fin 1024) (q : Fin 256), y = ix2 p q := ⟨y 0, y 1, eq_ix2 y⟩
  show body (F := Ideal) (xblk m c t) (qblk m c t) (sblk m c t) (bblk m c t) (ix2 p q)
    = result m c (((cfg0.win 4).blk t).view.emb (ix2 p q))
  rw [body_apply, out_emb]
  show _ = (∑ k : Fin 4096, argX m c (ix2 (row t p) k) * wt (argQ m c) (argS m c) (col t q) k)
    + argB m c (ix1 (col t q))
  refine congrArg₂ (· + ·) (Finset.sum_congr rfl fun k _ => term_eq m c t p q k) ?_
  rw [bblk_read, bias_at]

/-- The result array after the run. -/
theorem final (c : Dev nD) : (dats m 0 c).arrAt 4 cfg0.N = result m c :=
  (dats m 0 c).arrAt_eq_of_cover 4 (result m c) (fun t _ => flushed_eq m c t) cover

/-- Every weakly fair execution of the kernel program ends with the result array at `G` of the arguments, which are
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Dequant.KernelSide

end
-- ==== Proof.RefValue.lean ====
/-
  The reference program's result is the specification function `G`.

  The program unpacks the packed words through a rank-3 intermediate of shape 1536 × 8 × 4096 — entry (r, j, k) is the
  word Q[r, k] shifted right by 4j and masked with 15 — and reshapes it to 12288 × 4096, so row o = 8r + j of the
  reshaped array is field j = o mod 8 of packed row r = o div 8: the flat position o·4096 + k of (o, k) splits as
  ((o div 8)·8 + o mod 8)·4096 + k. The masked value is corrected to its signed value by a compare and select, which
  is `nib (o mod 8) Q[o div 8, k]`. The scales are broadcast to 12288 × 32 × 128 and reshaped to 12288 × 4096, so
  entry (o, k) is S[o, k div 128]: o·4096 + k = (o·32 + k div 128)·128 + k mod 128. The product of the two is
  transposed and contracted with X along its first axis, and the bias, broadcast along the rows, is added: at (t, o)

      (Σ_k X[t, k] · (float(nib (o mod 8) Q[o div 8, k]) · S[o, k div 128])) + B[o]  =  G[t, o].
-/
import proofs.«427488_j32341103739318_3_alg».proof.Proof.Gen.ReferenceIdeal.Read
import proofs.«427488_j32341103739318_3_alg».proof.Proof.Spec
import proofs.«427488_j32341103739318_3_alg».proof.Proof.Nibble

noncomputable section

namespace Cert.Dequant.RefSide

open Idealize.ShloMosaic Idealize.ShloMosaic.TcCoe Idealize.SL.Sem Idealize.ShloMosaic.ValueIdx
open Cert.ReferenceIdeal Cert.ReferenceIdeal.Read

/-! ## Where each layout operation reads, by coordinates -/

/-- The transposed product at (k, o) is the product at (o, k). -/
theorem idx_transpose (t : Fin 4096) (o : Fin 12288) (k : Fin 4096) :
    idx_main_v20 (ridx_main_v21 (ix2 t o) k) = ix2 o k := by
  funext a
  match a with
  | ⟨0, _⟩ => rfl
  | ⟨1, _⟩ => rfl

/-- The left operand of the contraction at (t, o), k is X[t, k]. -/
theorem idx_left (t : Fin 4096) (o : Fin 12288) (k : Fin 4096) :
    lidx_main_v21 (ix2 t o) k = ix2 t k := by
  funext a
  match a with
  | ⟨0, _⟩ => rfl
  | ⟨1, _⟩ => rfl

/-- Row o of the reshaped words, at column k, reads packed row o div 8 at column k … -/
theorem idx_word (o : Fin 12288) (k : Fin 4096) :
    idx_main_v3 (idx_main_v5 (idx_main_v10 (ix2 o k))) = ix2 (⟨o.val / 8, by omega⟩ : Fin 1536) k := by
  have ho := o.isLt
  have hk := k.isLt
  funext a
  refine Fin.ext ?_
  match a with
  | ⟨0, _⟩ => show (o.val * 4096 + k.val) / 32768 = o.val / 8; omega
  | ⟨1, _⟩ => show (o.val * 4096 + k.val) % 4096 = k.val; omega

/-- … and its shift amount is that of field o mod 8. -/
theorem idx_field (o : Fin 12288) (k : Fin 4096) :
    ((idx_main_v4 (idx_main_v6 (idx_main_v10 (ix2 o k)))) 0).val = o.val % 8 := by
  have ho := o.isLt
  have hk := k.isLt
  show (o.val * 4096 + k.val) / 4096 % 8 = o.val % 8
  omega

/-- The reshaped scales at (o, k) read S[o, k div 128]. -/
theorem idx_scale (o : Fin 12288) (k : Fin 4096) :
    idx_main_v17 (idx_main_v18 (ix2 o k)) = ix2 o (⟨k.val / 128, by omega⟩ : Fin 32) := by
  have ho := o.isLt
  have hk := k.isLt
  funext a
  refine Fin.ext ?_
  match a with
  | ⟨0, _⟩ => show (o.val * 4096 + k.val) / 4096 = o.val; omega
  | ⟨1, _⟩ => show (o.val * 4096 + k.val) / 128 % 32 = k.val / 128; omega

/-- The broadcast bias at (t, o) reads B[o]. -/
theorem idx_bias (t : Fin 4096) (o : Fin 12288) :
    idx_main_v22 (idx_main_v23 (ix2 t o)) = ix1 o := by
  funext a
  match a with
  | ⟨0, _⟩ => rfl

/-! ## The three factors at an index -/

/-- The unpacked integer weight at (o, k) is the signed field o mod 8 of Q[o div 8, k]. -/
theorem weight_at (Q : (⟨S1536x4096, .i32⟩ : BufTy).Contents (Elt Ideal)) (o : Fin 12288) (k : Fin 4096) :
    val_main_v15 (F := Ideal) Q (ix2 o k) = nib (o.val % 8) (Q (ix2 (⟨o.val / 8, by omega⟩ : Fin 1536) k)) := by
  simp only [val_main_v15_apply, val_main_v12_apply, val_main_v14_apply, val_main_v10_apply, val_main_v9_apply,
    val_main_v7_apply, val_main_v5_apply, val_main_v3_apply, val_main_v6_apply, val_main_v4_apply, val_main_v2_apply,
    val_main_v0_apply, val_main_v1_apply, val_main_c_apply, val_main_v8_apply, val_main_c_0_apply, val_main_v11_apply,
    val_main_c_1_apply, val_main_v13_apply, val_main_c_2_apply]
  have e : ((ix2 o k 0).val * 4096 + (ix2 o k 1).val) / 4096 % 8 = o.val % 8 := idx_field o k
  rw [idx_word, e]
  exact ref_nib (o.val % 8) (Nat.mod_lt _ (by decide)) _

/-- The scale at (o, k) is S[o, k div 128]. -/
theorem scale_at (S : (⟨S12288x32, .f32⟩ : BufTy).Contents (Elt Ideal)) (o : Fin 12288) (k : Fin 4096) :
    val_main_v18 (F := Ideal) S (ix2 o k) = S (ix2 o (⟨k.val / 128, by omega⟩ : Fin 32)) := by
  rw [val_main_v18_apply, val_main_v17_apply, idx_scale]

/-- The dequantized weight at (o, k). -/
theorem product_at (Q : (⟨S1536x4096, .i32⟩ : BufTy).Contents (Elt Ideal))
    (S : (⟨S12288x32, .f32⟩ : BufTy).Contents (Elt Ideal)) (o : Fin 12288) (k : Fin 4096) :
    val_main_v19 (F := Ideal) Q S (ix2 o k) = wt Q S o k := by
  rw [val_main_v19_apply, val_main_v16_apply, weight_at, scale_at]
  rfl

/-! ## The result -/

theorem ref_eq_G (X : (⟨S4096x4096, .f32⟩ : BufTy).Contents (Elt Ideal))
    (Q : (⟨S1536x4096, .i32⟩ : BufTy).Contents (Elt Ideal))
    (S : (⟨S12288x32, .f32⟩ : BufTy).Contents (Elt Ideal))
    (B : (⟨S12288, .f32⟩ : BufTy).Contents (Elt Ideal)) :
    Cert.ReferenceIdeal.Read.val_main_v24 (F := Ideal) X Q S B = Cert.Dequant.G X Q S B := by
  funext i
  obtain ⟨t, o, rfl⟩ : ∃ (t : Fin 4096) (o : Fin 12288), i = ix2 t o := ⟨i 0, i 1, eq_ix2 i⟩
  rw [val_main_v24_apply, val_main_v21_apply, val_main_v23_apply, val_main_v22_apply, idx_bias]
  refine congrArg₂ (· + ·) (Finset.sum_congr rfl fun k _ => ?_) rfl
  rw [val_main_v20_apply, idx_transpose, idx_left, product_at]

end Cert.Dequant.RefSide

end
-- ==== Proof.lean ====
/-
  An int4 weight-only-quantized linear layer: X · Wᵀ + B with W[o, k] = float(signed 4-bit field o mod 8 of the packed
  word Q[o div 8, k]) · S[o, k div 128], over X : 4096 × 4096, Q : 1536 × 4096 packed words, S : 12288 × 32, B : 12288.

  The kernel tiles the 4096 × 12288 result in 1024 × 256 blocks. For each block it runs over the 4096 input features in
  four chunks of 1024: it extracts each signed field by a left shift that brings the field's top bit to bit 31 followed by
  an arithmetic right shift by 28, scales by group, narrows to a shorter float format, multiplies with the activations
  (also narrowed) and accumulates from zero; at the end it adds the bias. The reference extracts each field by an
  arithmetic right shift, a mask with 15 and a correction by −16 above 7, scales, and takes one product over all 4096
  features, then adds the bias.

  Over the extended reals the two are the same function `G` of the arguments (Spec.lean): both field extractions give
  the signed field (Nibble.lean); a change of float format is the identity; the four chunk sums, accumulated from zero,
  are a regrouping of the one sum over 4096 features (SumSplit.lean), which needs only that addition is commutative and
  associative, so no finiteness of the inputs is used. The reference's result is `G` by RefValue.lean; the kernel's
  by KernelValue.lean (one chunk step in Chunk.lean, the body's stored block in Pieces.lean and BlockValue.lean, where
  the blocks sit in Geometry.lean, the two arrays the host prepares in HostPrefix.lean). The idealization rewrote
  nothing, so there is nothing to preserve.
-/
import proofs.«427488_j32341103739318_3_alg».proof.Defs
import proofs.«427488_j32341103739318_3_alg».proof.Proof.Gen.Kernel
import proofs.«427488_j32341103739318_3_alg».proof.Proof.Gen.Kernel.Skeleton
import proofs.«427488_j32341103739318_3_alg».proof.Proof.Gen.Kernel.Launch
import proofs.«427488_j32341103739318_3_alg».proof.Proof.Gen.Kernel.Points
import proofs.«427488_j32341103739318_3_alg».proof.Proof.Gen.Kernel.Frame
import proofs.«427488_j32341103739318_3_alg».proof.Proof.Gen.KernelIdeal
import proofs.«427488_j32341103739318_3_alg».proof.Proof.Gen.KernelIdeal.Skeleton
import proofs.«427488_j32341103739318_3_alg».proof.Proof.Gen.KernelIdeal.Launch
import proofs.«427488_j32341103739318_3_alg».proof.Proof.Gen.KernelIdeal.Points
import proofs.«427488_j32341103739318_3_alg».proof.Proof.Gen.KernelIdeal.Frame
import proofs.«427488_j32341103739318_3_alg».proof.Proof.Gen.ReferenceIdeal
import proofs.«427488_j32341103739318_3_alg».proof.Proof.Gen.Pre_finite_inputs
import proofs.«427488_j32341103739318_3_alg».proof.Proof.Gen.KernelIdeal.Value
import proofs.«427488_j32341103739318_3_alg».proof.Proof.Gen.ReferenceIdeal.Run
import proofs.«427488_j32341103739318_3_alg».proof.Proof.Gen.ReferenceIdeal.Read
import proofs.«427488_j32341103739318_3_alg».proof.Proof.KernelValue
import proofs.«427488_j32341103739318_3_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both `G` of the arguments. -/
theorem algebraic : Cert.algebraic_KernelIdeal_ReferenceIdeal := by
  intro m ρ m' ρ' _ hagree
  refine ⟨fun c => Cert.Dequant.KernelSide.result m c, Cert.Dequant.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Dequant.RefSide.ref_eq_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
